-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.truncf_extf.Statement Cert.KernelIdeal.S1024x512 .f32 .bf16
  ∧ IdealRules.truncf_extf.Statement Cert.KernelIdeal.S2048x512 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)) (v1 : (c : Dev Cert.KernelIdeal.nD) → Buf (Elt Ideal) ((c.tc : Thread Cert.KernelIdeal.nD Cert.KernelIdeal.τ).loc Cert.KernelIdeal.main_arg1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x512 : Shape := ⟨2, ![1024, 512]⟩
abbrev S1024 : Shape := ⟨1, ![1024]⟩
abbrev S100000x512 : Shape := ⟨2, ![100000, 512]⟩
abbrev S100000 : Shape := ⟨1, ![100000]⟩
abbrev S_ : Shape := ⟨0, ![]⟩

class Facts : Prop where
  bcast_S_S1024x512 : S_.BroadcastsInDim S1024x512 (![] : Fin 0 → Fin S1024x512.rank)
  reducesTo_S1024x512_S_d0_1 : S1024x512.ReducesTo [0, 1] S_
  h_S_ : 0 < S_.numel
  bcast_S_S100000x512 : S_.BroadcastsInDim S100000x512 (![] : Fin 0 → Fin S100000x512.rank)
  reducesTo_S100000x512_S_d0_1 : S100000x512.ReducesTo [0, 1] S_
  bcast_S_S100000 : S_.BroadcastsInDim S100000 (![] : Fin 0 → Fin S100000.rank)
  reducesTo_S100000_S_d0 : S100000.ReducesTo [0] S_

variable [Facts]

def fn {F : FTy → Type} [FloatOps F] (main_arg0 : FVec F S1024x512 .f32) (main_arg1 : IVec S1024 32) (main_arg2 : FVec F S100000x512 .f32) (main_arg3 : FVec F S100000 .f32) : IVec S_ 1 :=
  let main_v0 : FVec F S1024x512 .f32 := Host.absf main_arg0
  let main_cst : FVec F S_ .f32 := constant S_ .f32 0x7F800000#32
  let main_v1 : FVec F S1024x512 .f32 := broadcastInDim S1024x512 ![] bcast_S_S1024x512 main_cst
  let main_v2 : IVec S1024x512 1 := cmpf .olt main_v0 main_v1
  let main_c : IVec S_ 1 := constantI S_ 1 1#1
  let main_v3 : IVec S_ 1 := (fun x v => Host.reduce IntOp.andi x v reducesTo_S1024x512_S_d0_1 h_S_) main_v2 main_c
  let main_v4 : FVec F S100000x512 .f32 := Host.absf main_arg2
  let main_cst_0 : FVec F S_ .f32 := constant S_ .f32 0x7F800000#32
  let main_v5 : FVec F S100000x512 .f32 := broadcastInDim S100000x512 ![] bcast_S_S100000x512 main_cst_0
  let main_v6 : IVec S100000x512 1 := cmpf .olt main_v4 main_v5
  let main_c_1 : IVec S_ 1 := constantI S_ 1 1#1
  let main_v7 : IVec S_ 1 := (fun x v => Host.reduce IntOp.andi x v reducesTo_S100000x512_S_d0_1 h_S_) main_v6 main_c_1
  let main_v8 : IVec S_ 1 := andi main_v3 main_v7
  let main_v9 : FVec F S100000 .f32 := Host.absf main_arg3
  let main_cst_2 : FVec F S_ .f32 := constant S_ .f32 0x7F800000#32
  let main_v10 : FVec F S100000 .f32 := broadcastInDim S100000 ![] bcast_S_S100000 main_cst_2
  let main_v11 : IVec S100000 1 := cmpf .olt main_v9 main_v10
  let main_c_3 : IVec S_ 1 := constantI S_ 1 1#1
  let main_v12 : IVec S_ 1 := (fun x v => Host.reduce IntOp.andi x v reducesTo_S100000_S_d0 h_S_) main_v11 main_c_3
  let main_v13 : IVec S_ 1 := andi main_v8 main_v12
  main_v13
-- ==== Kernel.lean ====
abbrev S1024x512 : Shape := ⟨2, ![1024, 512]⟩
abbrev S1024 : Shape := ⟨1, ![1024]⟩
abbrev S100000x512 : Shape := ⟨2, ![100000, 512]⟩
abbrev S100000 : Shape := ⟨1, ![100000]⟩
abbrev S1x100000 : Shape := ⟨2, ![1, 100000]⟩
abbrev S1024x100000 : Shape := ⟨2, ![1024, 100000]⟩
abbrev S2048x512 : Shape := ⟨2, ![2048, 512]⟩
abbrev S1x2048 : Shape := ⟨2, ![1, 2048]⟩
abbrev S1024x2048 : Shape := ⟨2, ![1024, 2048]⟩

abbrev nBuf : Space → Nat
  | .hbm => 6
  | .vmem => 7
  | .smem => 0
  | _ => 0

abbrev bufTy : (tb : Table) → Fin (tcTables nBuf tb) → BufTy
  | .hbm, ⟨0, _⟩ => ⟨S1024x512, .f32⟩
  | .hbm, ⟨1, _⟩ => ⟨S1024, .i32⟩
  | .hbm, ⟨2, _⟩ => ⟨S100000x512, .f32⟩
  | .hbm, ⟨3, _⟩ => ⟨S100000, .f32⟩
  | .hbm, ⟨4, _⟩ => ⟨S1x100000, .f32⟩
  | .hbm, ⟨5, _⟩ => ⟨S1024x100000, .f32⟩
  | .local _ .vmem, ⟨0, _⟩ => ⟨S1024x512, .f32⟩
  | .local _ .vmem, ⟨1, _⟩ => ⟨S2048x512, .f32⟩
  | .local _ .vmem, ⟨2, _⟩ => ⟨S2048x512, .f32⟩
  | .local _ .vmem, ⟨3, _⟩ => ⟨S1x2048, .f32⟩
  | .local _ .vmem, ⟨4, _⟩ => ⟨S1x2048, .f32⟩
  | .local _ .vmem, ⟨5, _⟩ => ⟨S1024x2048, .f32⟩
  | .local _ .vmem, ⟨6, _⟩ => ⟨S1024x2048, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![49], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1024x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S100000_S1x100000 : S100000.ShapeCasts S1x100000
  inb_S1024x512_S1024x512_0_0 : ∀ a, (![0, 0] : Fin 2 → Nat) a + S1024x512.size a ≤ S1024x512.size a
  h_S1024x512 : 0 < S1024x512.numel
  inb_S2048x512_S2048x512_0_0 : ∀ a, (![0, 0] : Fin 2 → Nat) a + S2048x512.size a ≤ S2048x512.size a
  h_S2048x512 : 0 < S2048x512.numel
  bitsLt_bf16_f32 : FTy.bits .bf16 < FTy.bits .f32
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S1024x2048 : S1x2048.Broadcasts S1024x2048
  inb_S1024x2048_S1024x2048_0_0 : ∀ a, (![0, 0] : Fin 2 → Nat) a + S1024x2048.size a ≤ S1024x2048.size a
  h_S1024x2048 : 0 < S1024x2048.numel
  dot_S1024x512_S2048x512_S1024x2048_1_1_0_0_n_n_wf : DotDims.WF S1024x512 S2048x512 S1024x2048 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S1024x512.size a
  hwx0_0 : ∀ i : grid0.Coords, EltTy.bits .f32 = 32 ∨ (Rect.block (s := S1024x512) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S2048x512.size a < S100000x512.size a
  hwx0_1 : ∀ i : grid0.Coords, EltTy.bits .f32 = 32 ∨ (Rect.unit (s := S100000x512) (fun a => cc0_transform_1 i a * S2048x512.size a) (fun a => (Pipeline.Clip.of (cc0_transform_1 i a) (S2048x512.size a) (S100000x512.size a)).extent (S2048x512.size a)) fun a => Pipeline.Clip.inb (Pipeline.Clip.ok_of (hstart0_1 i a))).WholeWords (EltTy.packing .f32)
  hwxs0_1 : ∀ i : grid0.Coords, EltTy.bits .f32 = 32 ∨ (Rect.unit (s := S2048x512) (fun _ => 0) (fun a => (Pipeline.Clip.of (cc0_transform_1 i a) (S2048x512.size a) (S100000x512.size a)).extent (S2048x512.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S1x2048.size a < S1x100000.size a
  hwx0_2 : ∀ i : grid0.Coords, EltTy.bits .f32 = 32 ∨ (Rect.unit (s := S1x100000) (fun a => cc0_transform_2 i a * S1x2048.size a) (fun a => (Pipeline.Clip.of (cc0_transform_2 i a) (S1x2048.size a) (S1x100000.size a)).extent (S1x2048.size a)) fun a => Pipeline.Clip.inb (Pipeline.Clip.ok_of (hstart0_2 i a))).WholeWords (EltTy.packing .f32)
  hwxs0_2 : ∀ i : grid0.Coords, EltTy.bits .f32 = 32 ∨ (Rect.unit (s := S1x2048) (fun _ => 0) (fun a => (Pipeline.Clip.of (cc0_transform_2 i a) (S1x2048.size a) (S1x100000.size a)).extent (S1x2048.size a)) fun a => (Nat.zero_add _).trans_le (Pipeline.Clip.extent_le (Pipeline.Clip.ok_of (hstart0_2 i a)))).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S1024x2048.size a < S1024x100000.size a
  hwx0_3 : ∀ i : grid0.Coords, EltTy.bits .f32 = 32 ∨ (Rect.unit (s := S1024x100000) (fun a => cc0_transform_3 i a * S1024x2048.size a) (fun a => (Pipeline.Clip.of (cc0_transform_3 i a) (S1024x2048.size a) (S1024x100000.size a)).extent (S1024x2048.size a)) fun a => Pipeline.Clip.inb (Pipeline.Clip.ok_of (hstart0_3 i a))).WholeWords (EltTy.packing .f32)
  hwxs0_3 : ∀ i : grid0.Coords, EltTy.bits .f32 = 32 ∨ (Rect.unit (s := S1024x2048) (fun _ => 0) (fun a => (Pipeline.Clip.of (cc0_transform_3 i a) (S1024x2048.size a) (S1024x100000.size a)).extent (S1024x2048.size a)) fun a => (Nat.zero_add _).trans_le (Pipeline.Clip.extent_le (Pipeline.Clip.ok_of (hstart0_3 i a)))).WholeWords (EltTy.packing .f32)

variable [Facts₀]

def dot_S1024x512_S2048x512_S1024x2048_1_1_0_0_n_n : DotDims S1024x512 S2048x512 S1024x2048 where
  lhsContracting := [1]
  rhsContracting := [1]
  lhsNonContracting := [0]
  rhsNonContracting := [0]
  lhsBatch := []
  rhsBatch := []
  wf := dot_S1024x512_S2048x512_S1024x2048_1_1_0_0_n_n_wf

abbrev win0_0 : Pipeline.Window sig grid0 :=
  Pipeline.Window.ofSpec (Memref.whole main_arg0) S1024x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpecClip (Memref.whole main_arg2) S2048x512.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_v0) S1x2048.size cc0_transform_2 reads0_2 false false 2 stage0_2 sem0_2
    hrank0 hreads0_2 hstart0_2 nbuf0_2 (Memref.isWhole_whole _) hwx0_2 hwxs0_2 hstage0_2

abbrev win0_3 : Pipeline.Window sig grid0 :=
  Pipeline.Window.ofSpecClip (Memref.whole main_v1) S1024x2048.size cc0_transform_3 reads0_3 true false 2 stage0_3 sem0_3
    hrank0 hreads0_3 hstart0_3 nbuf0_3 (Memref.isWhole_whole _) hwx0_3 hwxs0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S1024x512 : Shape := ⟨2, ![1024, 512]⟩
abbrev S1024 : Shape := ⟨1, ![1024]⟩
abbrev S100000x512 : Shape := ⟨2, ![100000, 512]⟩
abbrev S100000 : Shape := ⟨1, ![100000]⟩
abbrev S512x100000 : Shape := ⟨2, ![512, 100000]⟩
abbrev S1024x100000 : Shape := ⟨2, ![1024, 100000]⟩
abbrev S1x100000 : Shape := ⟨2, ![1, 100000]⟩

abbrev nBuf : Space → Nat
  | .hbm => 9
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S1024, .i32⟩
  | .hbm, ⟨2, _⟩ => ⟨S100000x512, .f32⟩
  | .hbm, ⟨3, _⟩ => ⟨S100000, .f32⟩
  | .hbm, ⟨4, _⟩ => ⟨S512x100000, .f32⟩
  | .hbm, ⟨5, _⟩ => ⟨S1024x100000, .f32⟩
  | .hbm, ⟨6, _⟩ => ⟨S1x100000, .f32⟩
  | .hbm, ⟨7, _⟩ => ⟨S1024x100000, .f32⟩
  | .hbm, ⟨8, _⟩ => ⟨S1024x100000, .f32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]

class Facts₀ : Prop where
  transposes_S100000x512_S512x100000_1_0 : S100000x512.Transposes [1, 0] S512x100000
  bcast_S100000_S1x100000_1 : S100000.BroadcastsInDim S1x100000 (![1] : Fin 1 → Fin S1x100000.rank)
  bcast_S1x100000_S1024x100000_0_1 : S1x100000.BroadcastsInDim S1024x100000 (![0, 1] : Fin 2 → Fin S1024x100000.rank)
  dot_S1024x512_S512x100000_S1024x100000_1_0_0_1_n_n_wf : DotDims.WF S1024x512 S512x100000 S1024x100000 [1] [0] [0] [1] [] []

variable [Facts₀]

def dot_S1024x512_S512x100000_S1024x100000_1_0_0_1_n_n : DotDims S1024x512 S512x100000 S1024x100000 where
  lhsContracting := [1]
  rhsContracting := [0]
  lhsNonContracting := [0]
  rhsNonContracting := [1]
  lhsBatch := []
  rhsBatch := []
  wf := dot_S1024x512_S512x100000_S1024x100000_1_0_0_1_n_n_wf

class Facts : Prop extends Facts₀ where

variable [Facts]
-- ==== Proof.KernelBitsFrame.lean ====
/-
  The frame of the kernel as printed (word level): it runs to the end, faults nowhere, and leaves its arguments unchanged.
-/
import proofs.«155652_g5669356834823_cont_9to1_m_968_3_alg».proof.Defs
import proofs.«155652_g5669356834823_cont_9to1_m_968_3_alg».proof.Proof.Gen.Kernel
import proofs.«155652_g5669356834823_cont_9to1_m_968_3_alg».proof.Proof.Gen.Kernel.Skeleton
import proofs.«155652_g5669356834823_cont_9to1_m_968_3_alg».proof.Proof.Gen.Kernel.Launch
import proofs.«155652_g5669356834823_cont_9to1_m_968_3_alg».proof.Proof.Gen.Kernel.Points
import proofs.«155652_g5669356834823_cont_9to1_m_968_3_alg».proof.Proof.Gen.Kernel.Frame
import proofs.«155652_g5669356834823_cont_9to1_m_968_3_alg».proof.Proof.Gen.Pre_finite_inputs

noncomputable section

namespace Cert.Proof.KBits

open Idealize.ShloMosaic Idealize.SL.Sem
open Cert.Kernel Cert.Kernel.Gen
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode
open Idealize.ShloMosaic.Pipeline (RDat Cfg Window cellOf ΦA)

section Generic

variable {F : FTy → Type} [FloatOps F]

local notation "𝕄" => MT nD τ sig Unit (Elt F) ℕ (UR sig nD τ) ℕ

/-! ## The body's triple

Each of the four staging buffers is handed in at some contents and comes back at some contents: the three inputs
as they were (they are only loaded from), the output's overwritten whole by the one store. Nothing is said of
what any of them then holds. -/

theorem sound_kernel (c : Dev nD) (i : grid0.Coords)
    (arg1 : Memref sig .tc .vmem S1024x512 .f32) (harg1 : arg1.IsWhole)
    (arg2 : Memref sig .tc .vmem S2048x512 .f32) (harg2 : arg2.IsWhole)
    (arg3 : Memref sig .tc .vmem S1x2048 .f32) (harg3 : arg3.IsWhole)
    (arg4 : Memref sig .tc .vmem S1024x2048 .f32) (harg4 : arg4.IsWhole)
    (x1 : Vec F S1024x512 .f32) (x2 : Vec F S2048x512 .f32) (x3 : Vec F S1x2048 .f32) (x4 : Vec F S1024x2048 .f32)
    (K : PUnit → sProp 𝕄) :
    iprop(owns (c : Thread nD τ) arg1 fullShare x1 ∗ owns (c : Thread nD τ) arg2 fullShare x2
        ∗ owns (c : Thread nD τ) arg3 fullShare x3 ∗ owns (c : Thread nD τ) arg4 fullShare x4
        ∗ (iprop((∃ X, ⌜True⌝ ∗ owns (c : Thread nD τ) arg1 fullShare X) ∗ (∃ X, ⌜True⌝ ∗ owns (c : Thread nD τ) arg2 fullShare X)
            ∗ (∃ X, ⌜True⌝ ∗ owns (c : Thread nD τ) arg3 fullShare X) ∗ (∃ X, ⌜True⌝ ∗ owns (c : Thread nD τ) arg4 fullShare X)) -∗ K ⟨⟩))
      ⊢ wp frame (wpE (defs₀ (F := F)) Variants.none c none) Set.univ (cc0__proj_kernel i arg1 harg1 arg2 harg2 arg3 harg3 arg4 harg4) K := by
  simp only [cc0__proj_kernel_eq_skeleton]; unfold cc0__proj_kernel_skel
  unfold owns
  iintro ⟨⟨%f1, %hf1, H1⟩, ⟨%f2, %hf2, H2⟩, ⟨%f3, %hf3, H3⟩, ⟨%f4, %hf4, H4⟩, Hk⟩
  sl_exec
  sl_step
  iapply Hk
  isplitl [H1]
  · iexists _; isplitr; · ipureintro; trivial
    iexists f1; isplitr; · ipureintro; rfl
    iexact H1
  isplitl [H2]
  · iexists _; isplitr; · ipureintro; trivial
    iexists f2; isplitr; · ipureintro; rfl
    iexact H2
  isplitl [H3]
  · iexists _; isplitr; · ipureintro; trivial
    iexists f3; isplitr; · ipureintro; rfl
    iexact H3
  iexists _; isplitr; · ipureintro; trivial
  iexists _; isplitr
  swap; · iexact H4
  ipureintro; rfl

end Generic

section Run

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data

The arrays as the region finds them; of what the body leaves in a staging buffer, nothing is said (the relation
holds of any contents handed in and any contents left); the invariant the class's (no scratch is carried);
nothing owed; full shares. -/

def rdat (c : Dev nD) : RDat τ (Elt F) Unit ℕ (UR sig nD τ) ℕ cfg0 c where
  A w := V m c (Pipeline.arrRef spec0 w)
  after _ _ _ _ := True
  Φ _ := ΦA spec0 c
  q _ := fullShare
  owed _ := 0

theorem share_full (c : Dev nD) (w : Fin cfg0.W) : (rdat m c).share w = fullShare := by
  unfold RDat.share; split <;> rfl

/-! ## The body obligation, at a generic point -/

/-- The body at any point: whatever the four current staging buffers hold, the kernel function runs on them and hands
    each back at some contents; the invariant and what the core owes pass through unread. -/
theorem sound_body (c : Dev nD) (t : Fin cfg0.N) (Y : (w : Fin cfg0.W) → (cfg0.win w).block.Idx → Elt F (cfg0.win w).elt) :
    iprop((rdat m c).Φ t.castSucc ∗ (rdat m c).owesAt () t.castSucc
        ∗ owns (c : Thread nD τ) (st0_0 t) fullShare (Y 0) ∗ owns (c : Thread nD τ) (st0_1 t) fullShare (Y 1)
        ∗ owns (c : Thread nD τ) (st0_2 t) fullShare (Y 2) ∗ owns (c : Thread nD τ) (st0_3 t) fullShare (Y 3))
      ⊢ wp frame (wpE (defs₀ (F := F)) Variants.none c none) Set.univ (bodyAt0 t) (fun _ =>
        iprop((rdat m c).Φ t.succ ∗ (rdat m c).owesAt () t.succ
          ∗ (∃ X, ⌜(rdat m c).after 0 t (Y 0) X⌝ ∗ owns (c : Thread nD τ) (st0_0 t) fullShare X)
          ∗ (∃ X, ⌜(rdat m c).after 1 t (Y 1) X⌝ ∗ owns (c : Thread nD τ) (st0_1 t) fullShare X)
          ∗ (∃ X, ⌜(rdat m c).after 2 t (Y 2) X⌝ ∗ owns (c : Thread nD τ) (st0_2 t) fullShare X)
          ∗ (∃ X, ⌜(rdat m c).after 3 t (Y 3) X⌝ ∗ owns (c : Thread nD τ) (st0_3 t) fullShare X))) := by
  unfold bodyAt0
  rw [show (rdat m c).Φ t.succ = (rdat m c).Φ t.castSucc from rfl,
    show (rdat m c).owesAt () t.succ = (rdat m c).owesAt () t.castSucc from rfl]
  dsimp only [rdat]
  iintro ⟨HΦ, Ho, H0, H1, H2, H3⟩
  iapply (sound_kernel c _ _ _ _ _ _ _ _ _ (Y 0) (Y 1) (Y 2) (Y 3) _)
  isplitl [H0]; · iexact H0
  isplitl [H1]; · iexact H1
  isplitl [H2]; · iexact H2
  isplitl [H3]; · iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation of the relational data, at every point: nothing of what the buffers may hold is used. -/
theorem body_obligation (c : Dev nD) : (rdat (F := F) m c).BodyObligation (defs₀ (F := F)) Variants.none () Set.univ := fun t Y _ => by
  rw [bigSep_W0, bigSep_W0]
  exact sound_body m c t Y

/-! ## The run and the frame -/

set_option backward.isDefEq.respectTransparency.types false in
/-- From any memory with zero counters every weakly fair execution of @main on the TensorCores terminates, and every
    final state has every windowed array at contents it may hold after the write-backs and every other unscoped
    buffer as the region found it. -/
theorem run_main : θ_run defs (onTc (τ := τ) (main (F := F))) (s₀ m ρ) (Pipeline.RDat.FramePost cfg0 (rdat m) (V m)) :=
  Pipeline.RDat.θ_run_frame cfgs (0 : Fin 1) launch0 defs₀ Variants.none (rdat m) m ρ main
    (hbody := fun c => body_obligation m c) (hshare := fun c w => share_full m c w)
    (howed := fun _ _ => rfl) (V := V m) (hmain := hmain m Variants.none) (hA := fun _ _ => rfl) (hΦ := fun _ _ => rfl)

/-- The frame claim's post at any float family: a staged input array is never written, so it ends at its entry contents;
    an array no window stages bypasses the region; each is then as launched, no host operation before the region
    writing it. -/
theorem frame_any : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r (h : Pipeline.RDat.FramePost cfg0 (rdat m) (V m) r) c => ⟨(Pipeline.RDat.FramePost.arr_in h c (0 : Fin cfg0.W) rfl).trans (V_main_arg0 m c),
      ((h c).2 main_arg1 (Pipeline.mem_restRefs_of main_arg1 (by decide) (by decide))).trans (V_main_arg1 m c),
      (Pipeline.RDat.FramePost.arr_in h c (1 : Fin cfg0.W) rfl).trans (V_main_arg2 m c),
      ((h c).2 main_arg3 (Pipeline.mem_restRefs_of main_arg3 (by decide) (by decide))).trans (V_main_arg3 m c)⟩) (run_main m ρ)

end Run

theorem frame : Cert.frame_Kernel := fun m ρ _ => frame_any (F := Bits) m ρ

end Cert.Proof.KBits

end
-- ==== Proof.IdealData.lean ====
/-
  The idealized kernel's pipeline, its proof data at the extended reals.

  The grid has 49 points; point `t` stages the whole activations `x` (fetched once, at the first point), rows
  `2048·t ‥ 2048·t + 2047` of the weights `W`, columns `2048·t ‥` of the bias row, and writes back columns `2048·t ‥` of
  the logits. 49 · 2048 = 100352 > 100000: at the last point the weights', the bias's and the logits' blocks overhang
  their arrays by 352 rows (columns), so a fetch there fills only the block's leading part and leaves the rest of the
  staging buffer at contents nothing names; a write-back writes only the leading part.

  `spec`: what the logits array holds after the run, one function of the arrays as the region finds them:
  `spec (i, j) = (Σ_k x(i,k) · W(j,k)) + b(0, j)`, `b` the bias as the row [1, 100000] the host reshapes it to.
  The proof data name, after the body at point `t`: the activations' buffer at its block; the weights' and the bias's
  at their blocks on the part inside the array, zero past it (nothing reads that filler: the windows are stated on the
  moved part only); the logits' buffer at `spec`'s block on the part inside the array, zero past it.
-/
import proofs.«155652_g5669356834823_cont_9to1_m_968_3_alg».proof.Proof.Gen.KernelIdeal.Frame
import Idealize.ShloMosaic.Lib.Pipeline.Value
import Idealize.ShloMosaic.Lib.ValueIdx

noncomputable section

namespace Cert.Proof.KI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf ΦA)
open Idealize.ShloMosaic.ValueIdx
open scoped BigOperators

variable (m : (ℓ : Loc nD τ sig) → Buf (Elt Ideal) ℓ)

/-- The activations as the region finds them. -/
abbrev xA (c : Dev nD) : FVec Ideal S1024x512 .f32 := V m c main_arg0
/-- The weights as the region finds them. -/
abbrev wA (c : Dev nD) : FVec Ideal S100000x512 .f32 := V m c main_arg2
/-- The bias row as the region finds it: the host's reshape of the bias to [1, 100000]. -/
abbrev bA (c : Dev nD) : FVec Ideal S1x100000 .f32 := V m c main_v0

/-- The logits: row `i` of the activations against row `j` of the weights, plus the bias at `j`. -/
def spec (c : Dev nD) : FVec Ideal S1024x100000 .f32 :=
  fun i => (∑ k : Fin 512, xA m c (ix2 (i 0) k) * wA m c (ix2 (i 1) k)) + bA m c (ix2 (0 : Fin 1) (i 1))

/-- The proof data of the one pipeline on core `c`. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => win0_1.fill (grid0.coords t) (fun _ => (0 : EReal)) (iblk m c 1 t)
    | ⟨2, _⟩ => win0_2.fill (grid0.coords t) (fun _ => (0 : EReal)) (iblk m c 2 t)
    | ⟨3, _⟩ => win0_3.fill (grid0.coords t) (fun _ => (0 : EReal)) ((win0_3.blk t).view.read (Elt Ideal) (spec m c))
  Φ _ := ΦA spec0 c
  q _ := fullShare
  owed _ := 0

theorem A_eq (c : Dev nD) (w : Fin cfg0.W) : (dats m 0 c).A w = V m c (Pipeline.arrRef spec0 w) := rfl

theorem after0_0 (c : Dev nD) (t : Fin cfg0.N) : (dats m 0 c).after 0 t = iblk m c 0 t := by dsimp only [dats]
theorem after0_1 (c : Dev nD) (t : Fin cfg0.N) :
    (dats m 0 c).after 1 t = win0_1.fill (grid0.coords t) (fun _ => (0 : EReal)) (iblk m c 1 t) := by dsimp only [dats]
theorem after0_2 (c : Dev nD) (t : Fin cfg0.N) :
    (dats m 0 c).after 2 t = win0_2.fill (grid0.coords t) (fun _ => (0 : EReal)) (iblk m c 2 t) := by dsimp only [dats]
theorem after0_3 (c : Dev nD) (t : Fin cfg0.N) :
    (dats m 0 c).after 3 t = win0_3.fill (grid0.coords t) (fun _ => (0 : EReal)) ((win0_3.blk t).view.read (Elt Ideal) (spec m c)) := by
  dsimp only [dats]

/-- What the write-back at point `t` writes: `spec`'s block there (its part inside the array). -/
theorem flushed3 (c : Dev nD) (t : Fin cfg0.N) :
    (dats m 0 c).flushed 3 t = (win0_3.blk t).view.read (Elt Ideal) (spec m c) := by
  show win0_3.cut (grid0.coords t) ((dats m 0 c).after 3 t) = _
  rw [after0_3]; exact win0_3.cut_fill _ _ _

end Cert.Proof.KI

end
-- ==== Proof.IdealKernel.lean ====
/-
  The idealized kernel's body on its four staging buffers, at any float instance: it loads the activations', the weights'
  and the bias's buffers whole, (idly) the logits' buffer, and stores one whole-buffer value into the logits' buffer:
  the three buffers it read end as they were, the fourth at that value of the three.
-/
import proofs.«155652_g5669356834823_cont_9to1_m_968_3_alg».proof.Proof.Gen.KernelIdeal.Frame
import proofs.«155652_g5669356834823_cont_9to1_m_968_3_alg».proof.Proof.Gen.KernelIdeal.Skeleton
import Idealize.ShloMosaic.Lib.Pipeline.Value

noncomputable section

namespace Cert.Proof.KI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf ΦA)

variable {F : FTy → Type} [FloatOps F]

local notation "𝕄" => MT nD τ sig Unit (Elt F) ℕ (UR sig nD τ) ℕ

/-- The whole-buffer rectangles the body reads and writes through. -/
abbrev rX : Rect S1024x512 := Rect.unit (s := S1024x512) ![0, 0] S1024x512.size inb_S1024x512_S1024x512_0_0
abbrev rW : Rect S2048x512 := Rect.unit (s := S2048x512) ![0, 0] S2048x512.size inb_S2048x512_S2048x512_0_0
abbrev rB : Rect S1x2048 := Rect.unit (s := S1x2048) ![0, 0] S1x2048.size inb_S1x2048_S1x2048_0_0
abbrev rO : Rect S1024x2048 := Rect.unit (s := S1024x2048) ![0, 0] S1024x2048.size inb_S1024x2048_S1024x2048_0_0

/-- The whole-buffer rectangles' offsets are zero. -/
theorem off0 : (![0, 0] : Fin 2 → ℕ) = fun _ => 0 := funext fun a => by fin_cases a <;> rfl

/-- One store through the whole-buffer rectangle covers every index. -/
theorem coverO (w : Vec F S1024x2048 .f32) (y : S1024x2048.Idx) :
    ∃ pc ∈ ([⟨rO, w⟩] : List (View.Piece (Elt F) S1024x2048 .f32)), y ∈ pc.1.set :=
  View.cover_of_tiled [⟨rO, w⟩] S1024x2048.size (by rfl) y

set_option maxHeartbeats 1000000 in
theorem sound_kernel (c : Dev nD) (E : Set ℕ) (i : grid0.Coords)
    (arg1 : Memref sig .tc .vmem S1024x512 .f32) (harg1 : arg1.IsWhole) (arg2 : Memref sig .tc .vmem S2048x512 .f32) (harg2 : arg2.IsWhole)
    (arg3 : Memref sig .tc .vmem S1x2048 .f32) (harg3 : arg3.IsWhole) (arg4 : Memref sig .tc .vmem S1024x2048 .f32) (harg4 : arg4.IsWhole)
    (x0 : Vec F S1024x512 .f32) (x1 : Vec F S2048x512 .f32) (x2 : Vec F S1x2048 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (k0_pay1 x0 x1 x2)) -∗ K ⟨⟩))
      ⊢ wp frame (wpE (defs₀ (F := F)) Variants.none c none) E (cc0__proj_kernel i arg1 harg1 arg2 harg2 arg3 harg3 arg4 harg4) K := by
  simp only [cc0__proj_kernel_eq_skeleton]; unfold cc0__proj_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  rw [View.read_writes_eq_canon _ _ _ (coverO _), View.canon_unit_zero off0]
  simp only [View.readAt_eq_ld, View.ld_unit_zero (S := S1024x512) off0, View.ld_unit_zero (S := S2048x512) off0,
    View.ld_unit_zero (S := S1x2048) off0]

end Cert.Proof.KI

end
-- ==== Proof.IdealBefore.lean ====
/-
  What the body finds in each window's current staging buffer at point `t`: the activations' block (fetched at the first
  point and left in place since); the weights' and the bias's blocks just fetched — the block on the part inside the
  array, contents nothing names past it —; the logits' buffer at contents nothing names (it is written back at every point).
-/
import proofs.«155652_g5669356834823_cont_9to1_m_968_3_alg».proof.Proof.IdealData
import proofs.«155652_g5669356834823_cont_9to1_m_968_3_alg».proof.Proof.Gen.KernelIdeal.Points

noncomputable section

namespace Cert.Proof.KI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf ΦA)
open Idealize.ShloMosaic.ValueIdx

variable (m : (ℓ : Loc nD τ sig) → Buf (Elt Ideal) ℓ)

theorem fetch0_3 : ∀ t : Fin cfg0.N, (cfg0.win 3).fetch t = false :=
  (by decide +kernel : ∀ t : Fin grid0.N, win0_3.fetch t = false)

theorem before0_0 (c : Dev nD) (t : Fin cfg0.N) (d) : (dats m 0 c).before 0 t d = iblk m c 0 t :=
  Gen.before0_0_of m (dats m 0 c) (A_eq m c 0) (after0_0 m c) t d

theorem before0_1 (c : Dev nD) (t : Fin cfg0.N) (d) :
    (dats m 0 c).before 1 t d = win0_1.fill (grid0.coords t) d (iblk m c 1 t) := by
  unfold Dat.before; rw [if_pos (fetch0_1 t)]; rfl

theorem before0_2 (c : Dev nD) (t : Fin cfg0.N) (d) :
    (dats m 0 c).before 2 t d = win0_2.fill (grid0.coords t) d (iblk m c 2 t) := by
  unfold Dat.before; rw [if_pos (fetch0_2 t)]; rfl

theorem before0_3 (c : Dev nD) (t : Fin cfg0.N) (d) : (dats m 0 c).before 3 t d = d := by
  unfold Dat.before
  rw [if_neg (by rw [fetch0_3 t]; exact Bool.false_ne_true)]
  by_cases ht : t.val = 0
  · rw [if_pos ht]
  · rw [if_neg ht]; exact if_pos (Gen.flush0_3 _)

end Cert.Proof.KI

end
-- ==== Proof.IdealBlocks.lean ====
/-
  The staging buffers read at an index. At point `t` the activations' block is the whole array; the weights' buffer holds
  row `2048·t + q` of the weights at its row `q`, and the bias's buffer the bias row's column `2048·t + q` at its column
  `q`, wherever that row (column) lies inside the array — whatever the buffer held past the array's end —; and an index
  of the logits' block at `t`, cut at the array's end, is a row `p` and a column `q` with `2048·t + q < 100000`, at which
  the cut reads the buffer at (p, q) and the block reads the array at (p, 2048·t + q).
-/
import proofs.«155652_g5669356834823_cont_9to1_m_968_3_alg».proof.Proof.IdealData
import proofs.«155652_g5669356834823_cont_9to1_m_968_3_alg».proof.Proof.Gen.KernelIdeal.Points

noncomputable section

namespace Cert.Proof.KI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf ΦA)
open Idealize.ShloMosaic.ValueIdx

variable (m : (ℓ : Loc nD τ sig) → Buf (Elt Ideal) ℓ)

/-- The activations' staging buffer at point `t`. -/
abbrev xbuf (c : Dev nD) (t : Fin cfg0.N) : Vec Ideal S1024x512 .f32 := iblk m c 0 t
/-- The weights' staging buffer at point `t` after the fetch, if it held `d` before. -/
abbrev wbuf (c : Dev nD) (t : Fin cfg0.N) (d : Vec Ideal S2048x512 .f32) : Vec Ideal S2048x512 .f32 :=
  win0_1.fill (grid0.coords t) d (iblk m c 1 t)
/-- The bias's staging buffer at point `t` after the fetch, if it held `d` before. -/
abbrev bbuf (c : Dev nD) (t : Fin cfg0.N) (d : Vec Ideal S1x2048 .f32) : Vec Ideal S1x2048 .f32 :=
  win0_2.fill (grid0.coords t) d (iblk m c 2 t)

/-- The activations' window over the grid: block index `(0, 0)` at every point (the block is the whole array). -/
theorem blocks_idx0 : ∀ t : Fin cfg0.N, win0_0.index t (0 : Fin 2) = 0 ∧ win0_0.index t (1 : Fin 2) = 0 :=
  (by decide +kernel : ∀ t : Fin grid0.N, win0_0.index t (0 : Fin 2) = 0 ∧ win0_0.index t (1 : Fin 2) = 0)

/-- The weights' window over the grid: block index `(t, 0)`; inside the array lie, of the 2048 rows from `2048·t` on,
    those below 100000, and all 512 columns. -/
theorem blocks_idx1 : ∀ t : Fin cfg0.N, win0_1.index t (0 : Fin 2) = t.val ∧ win0_1.index t (1 : Fin 2) = 0
    ∧ win0_1.xsize (grid0.coords t) (0 : Fin 2) = min 2048 (100000 - 2048 * t.val)
    ∧ win0_1.xsize (grid0.coords t) (1 : Fin 2) = 512 :=
  (by decide +kernel : ∀ t : Fin grid0.N, win0_1.index t (0 : Fin 2) = t.val ∧ win0_1.index t (1 : Fin 2) = 0
    ∧ win0_1.xsize (grid0.coords t) (0 : Fin 2) = min 2048 (100000 - 2048 * t.val)
    ∧ win0_1.xsize (grid0.coords t) (1 : Fin 2) = 512)

/-- The bias's window over the grid: block index `(0, t)`; inside the array lie the one row and, of the 2048 columns
    from `2048·t` on, those below 100000. -/
theorem blocks_idx2 : ∀ t : Fin cfg0.N, win0_2.index t (0 : Fin 2) = 0 ∧ win0_2.index t (1 : Fin 2) = t.val
    ∧ win0_2.xsize (grid0.coords t) (0 : Fin 2) = 1
    ∧ win0_2.xsize (grid0.coords t) (1 : Fin 2) = min 2048 (100000 - 2048 * t.val) :=
  (by decide +kernel : ∀ t : Fin grid0.N, win0_2.index t (0 : Fin 2) = 0 ∧ win0_2.index t (1 : Fin 2) = t.val
    ∧ win0_2.xsize (grid0.coords t) (0 : Fin 2) = 1
    ∧ win0_2.xsize (grid0.coords t) (1 : Fin 2) = min 2048 (100000 - 2048 * t.val))

/-- The logits' window over the grid: block index `(0, t)`; inside the array lie all 1024 rows and, of the 2048
    columns from `2048·t` on, those below 100000. -/
theorem blocks_idx3 : ∀ t : Fin cfg0.N, win0_3.index t (0 : Fin 2) = 0 ∧ win0_3.index t (1 : Fin 2) = t.val
    ∧ win0_3.xsize (grid0.coords t) (0 : Fin 2) = 1024
    ∧ win0_3.xsize (grid0.coords t) (1 : Fin 2) = min 2048 (100000 - 2048 * t.val) :=
  (by decide +kernel : ∀ t : Fin grid0.N, win0_3.index t (0 : Fin 2) = 0 ∧ win0_3.index t (1 : Fin 2) = t.val
    ∧ win0_3.xsize (grid0.coords t) (0 : Fin 2) = 1024
    ∧ win0_3.xsize (grid0.coords t) (1 : Fin 2) = min 2048 (100000 - 2048 * t.val))

theorem xbuf_apply (c : Dev nD) (t : Fin cfg0.N) (p : Fin 1024) (k : Fin 512) :
    xbuf m c t (ix2 p k) = xA m c (ix2 p k) := by
  obtain ⟨e0, e1⟩ := blocks_idx0 t
  -- the block read at (p, k) is the array at the block's embedding of (p, k): index × size + the coordinate
  show V m c main_arg0 (((cfg0.win 0).blk t).view.emb (ix2 p k)) = V m c main_arg0 (ix2 p k)
  refine congrArg _ ?_
  funext a; apply Fin.ext
  match a with
  | ⟨0, _⟩ => show win0_0.index t (0 : Fin 2) * 1024 + 1 * p.val = p.val; omega
  | ⟨1, _⟩ => show win0_0.index t (1 : Fin 2) * 512 + 1 * k.val = k.val; omega

theorem wbuf_apply (c : Dev nD) (t : Fin cfg0.N) (d : Vec Ideal S2048x512 .f32) (q : Fin 2048) (k : Fin 512)
    (hq : 2048 * t.val + q.val < 100000) :
    wbuf m c t d (ix2 q k) = wA m c (ix2 (⟨2048 * t.val + q.val, hq⟩ : Fin 100000) k) := by
  obtain ⟨e0, e1, e2, e3⟩ := blocks_idx1 t
  have hk : k.val < 512 := k.isLt
  have hqq : q.val < 2048 := q.isLt
  -- row q is one the fetch moves: it lies inside the array
  have hm : win0_1.moved (grid0.coords t) (ix2 q k) = true := by
    rw [Window.moved_iff]
    intro a
    match a with
    | ⟨0, _⟩ => show q.val < win0_1.xsize (grid0.coords t) (0 : Fin 2); rw [e2]; omega
    | ⟨1, _⟩ => show k.val < win0_1.xsize (grid0.coords t) (1 : Fin 2); rw [e3]; omega
  show win0_1.fill (grid0.coords t) d (iblk m c 1 t) (ix2 q k) = _
  unfold Window.fill
  rw [dif_pos hm]
  show V m c main_arg2 (((cfg0.win 1).blk t).view.emb _) = V m c main_arg2 (ix2 (⟨2048 * t.val + q.val, hq⟩ : Fin 100000) k)
  refine congrArg _ ?_
  funext a; apply Fin.ext
  match a with
  | ⟨0, _⟩ => show win0_1.index t (0 : Fin 2) * 2048 + 1 * q.val = 2048 * t.val + q.val; omega
  | ⟨1, _⟩ => show win0_1.index t (1 : Fin 2) * 512 + 1 * k.val = k.val; omega

theorem bbuf_apply (c : Dev nD) (t : Fin cfg0.N) (d : Vec Ideal S1x2048 .f32) (q : Fin 2048)
    (hq : 2048 * t.val + q.val < 100000) :
    bbuf m c t d (ix2 (0 : Fin 1) q) = bA m c (ix2 (0 : Fin 1) (⟨2048 * t.val + q.val, hq⟩ : Fin 100000)) := by
  obtain ⟨e0, e1, e2, e3⟩ := blocks_idx2 t
  have hqq : q.val < 2048 := q.isLt
  -- column q is one the fetch moves: it lies inside the array
  have hm : win0_2.moved (grid0.coords t) (ix2 (0 : Fin 1) q) = true := by
    rw [Window.moved_iff]
    intro a
    match a with
    | ⟨0, _⟩ => show (0 : Nat) < win0_2.xsize (grid0.coords t) (0 : Fin 2); rw [e2]; omega
    | ⟨1, _⟩ => show q.val < win0_2.xsize (grid0.coords t) (1 : Fin 2); rw [e3]; omega
  show win0_2.fill (grid0.coords t) d (iblk m c 2 t) (ix2 (0 : Fin 1) q) = _
  unfold Window.fill
  rw [dif_pos hm]
  show V m c main_v0 (((cfg0.win 2).blk t).view.emb _) = V m c main_v0 (ix2 (0 : Fin 1) (⟨2048 * t.val + q.val, hq⟩ : Fin 100000))
  refine congrArg _ ?_
  funext a; apply Fin.ext
  match a with
  | ⟨0, _⟩ => show win0_2.index t (0 : Fin 2) * 1 + 1 * (0 : Nat) = 0; omega
  | ⟨1, _⟩ => show win0_2.index t (1 : Fin 2) * 2048 + 1 * q.val = 2048 * t.val + q.val; omega

theorem cut3_apply (t : Fin cfg0.N) (j : (win0_3.xblock (grid0.coords t)).Idx) :
    ∃ (p : Fin 1024) (q : Fin 2048) (hq : 2048 * t.val + q.val < 100000),
      (∀ X : Vec Ideal S1024x2048 .f32, win0_3.cut (grid0.coords t) X j = X (ix2 p q))
      ∧ ∀ G : FVec Ideal S1024x100000 .f32,
          (win0_3.blk t).view.read (Elt Ideal) G j = G (ix2 p (⟨2048 * t.val + q.val, hq⟩ : Fin 100000)) := by
  obtain ⟨e0, e1, e2, e3⟩ := blocks_idx3 t
  -- the coordinates of an index of the cut block: a row below 1024, a column below the part inside the array
  have hj0 : (j (0 : Fin 2)).val < win0_3.xsize (grid0.coords t) (0 : Fin 2) := (j (0 : Fin 2)).isLt
  have hj1 : (j (1 : Fin 2)).val < win0_3.xsize (grid0.coords t) (1 : Fin 2) := (j (1 : Fin 2)).isLt
  rw [e2] at hj0; rw [e3] at hj1
  refine ⟨⟨(j (0 : Fin 2)).val, hj0⟩, ⟨(j (1 : Fin 2)).val, by omega⟩,
    (by show 2048 * t.val + (j (1 : Fin 2)).val < 100000; omega), ?_, ?_⟩
  · intro X
    show X (win0_3.xinj (grid0.coords t) j) = X (ix2 _ _)
    refine congrArg X ?_
    funext a; apply Fin.ext
    match a with
    | ⟨0, _⟩ => rfl
    | ⟨1, _⟩ => rfl
  · intro G
    show G ((win0_3.blk t).view.emb j) = G (ix2 _ _)
    refine congrArg G ?_
    funext a; apply Fin.ext
    match a with
    | ⟨0, _⟩ => show win0_3.index t (0 : Fin 2) * 1024 + 1 * (j (0 : Fin 2)).val = (j (0 : Fin 2)).val; omega
    | ⟨1, _⟩ =>
      show win0_3.index t (1 : Fin 2) * 2048 + 1 * (j (1 : Fin 2)).val = 2048 * t.val + (j (1 : Fin 2)).val
      omega

end Cert.Proof.KI

end
-- ==== Proof.Payload.lean ====
/-
  The idealized kernel's stored value at an index, over the extended reals: for activations and weights that are real
  on the row concerned, the three products' sum is the one product's, plus the bias.
-/
import proofs.«155652_g5669356834823_cont_9to1_m_968_3_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

namespace Cert.Proof.Pay

open Idealize.ShloMosaic Idealize.ShloMosaic.ValueIdx
open Cert.KernelIdeal Cert.KernelIdeal.Gen
open scoped BigOperators

/-! ## The one dot record's operand indices

Both operands are contracted on their axis 1: the output's row picks the left operand's row, the output's column
picks the right operand's ROW, and the contraction position is each operand's column. -/

theorem lhs_0 (i : S1024x2048.Idx) (c : dot_S1024x512_S2048x512_S1024x2048_1_1_0_0_n_n.contr.Idx) :
    (dot_S1024x512_S2048x512_S1024x2048_1_1_0_0_n_n.lhsIdx i c 0).val = (i 0).val := by
  unfold DotDims.lhsIdx
  rw [dif_neg (show ¬(0 : Fin S1024x512.rank) ∈ dot_S1024x512_S2048x512_S1024x2048_1_1_0_0_n_n.lhsBatch by decide), dif_pos (show (0 : Fin S1024x512.rank) ∈ dot_S1024x512_S2048x512_S1024x2048_1_1_0_0_n_n.lhsNonContracting by decide)]
  rfl
theorem lhs_1 (i : S1024x2048.Idx) (c : dot_S1024x512_S2048x512_S1024x2048_1_1_0_0_n_n.contr.Idx) :
    (dot_S1024x512_S2048x512_S1024x2048_1_1_0_0_n_n.lhsIdx i c 1).val = (c ⟨0, by decide⟩).val :=
  dot_S1024x512_S2048x512_S1024x2048_1_1_0_0_n_n.lhsIdx_val_of_single rfl i c
theorem rhs_0 (i : S1024x2048.Idx) (c : dot_S1024x512_S2048x512_S1024x2048_1_1_0_0_n_n.contr.Idx) :
    (dot_S1024x512_S2048x512_S1024x2048_1_1_0_0_n_n.rhsIdx i c 0).val = (i 1).val := by
  unfold DotDims.rhsIdx
  rw [dif_neg (show ¬(0 : Fin S2048x512.rank) ∈ dot_S1024x512_S2048x512_S1024x2048_1_1_0_0_n_n.rhsBatch by decide), dif_pos (show (0 : Fin S2048x512.rank) ∈ dot_S1024x512_S2048x512_S1024x2048_1_1_0_0_n_n.rhsNonContracting by decide)]
  rfl
theorem rhs_1 (i : S1024x2048.Idx) (c : dot_S1024x512_S2048x512_S1024x2048_1_1_0_0_n_n.contr.Idx) :
    (dot_S1024x512_S2048x512_S1024x2048_1_1_0_0_n_n.rhsIdx i c 1).val = (c ⟨0, by decide⟩).val :=
  dot_S1024x512_S2048x512_S1024x2048_1_1_0_0_n_n.rhsIdx_val_of_single rfl i c

/-- One product into the zero accumulator, read at (p, q): the sum over the 512 columns of the left operand's row p
    times the right operand's row q. -/
theorem mm_apply (l : FVec Ideal S1024x512 .bf16) (r : FVec Ideal S2048x512 .bf16) (p : Fin 1024) (q : Fin 2048) :
    matmul dot_S1024x512_S2048x512_S1024x2048_1_1_0_0_n_n none l r (constant S1024x2048 .f32 0x00000000#32) (ix2 p q)
      = ∑ k : Fin 512, l (ix2 p k) * r (ix2 q k) := by
  simp only [matmul]
  rw [Ideal.matmul_constant_zero_apply, ← Equiv.sum_comp (ValueIdx.contrEquiv1 dot_S1024x512_S2048x512_S1024x2048_1_1_0_0_n_n 512 rfl rfl).symm]
  refine Finset.sum_congr rfl fun k _ => ?_
  have hk := ValueIdx.contrEquiv1_symm_val dot_S1024x512_S2048x512_S1024x2048_1_1_0_0_n_n 512 rfl rfl k
  have el : dot_S1024x512_S2048x512_S1024x2048_1_1_0_0_n_n.lhsIdx (ix2 p q) ((ValueIdx.contrEquiv1 dot_S1024x512_S2048x512_S1024x2048_1_1_0_0_n_n 512 rfl rfl).symm k) = ix2 p k := funext fun a => Fin.ext (by
    match a with
    | ⟨0, _⟩ => exact lhs_0 _ _
    | ⟨1, _⟩ => exact (lhs_1 _ _).trans hk)
  have er : dot_S1024x512_S2048x512_S1024x2048_1_1_0_0_n_n.rhsIdx (ix2 p q) ((ValueIdx.contrEquiv1 dot_S1024x512_S2048x512_S1024x2048_1_1_0_0_n_n 512 rfl rfl).symm k) = ix2 q k := funext fun a => Fin.ext (by
    match a with
    | ⟨0, _⟩ => exact rhs_0 _ _
    | ⟨1, _⟩ => exact (rhs_1 _ _).trans hk)
  rw [el, er]

/-- The bias row broadcast over the 1024 rows, read at (p, q): the row at (0, q). -/
theorem bias_apply (bb : Vec Ideal S1x2048 .f32) (p : Fin 1024) (q : Fin 2048) :
    broadcastTo S1024x2048 (shapeCast S1x2048 bb Facts₀.shapeCasts_S1x2048_S1x2048) Facts₀.broadcasts_S1x2048_S1024x2048 (ix2 p q)
      = bb (ix2 (0 : Fin 1) q) := by
  rw [shapeCast_self]
  exact broadcastTo_apply bb Facts₀.broadcasts_S1x2048_S1024x2048 (ix2 p q) (ix2 (0 : Fin 1) q) (fun a => match a with
    | ⟨0, _⟩ => by show 0 = if (1 : Nat) = 1 then 0 else p.val; rw [if_pos rfl]
    | ⟨1, _⟩ => by show q.val = if (2048 : Nat) = 1 then 0 else q.val; rw [if_neg (by decide)])

theorem pay_apply (x0 : Vec Ideal S1024x512 .f32) (w : Vec Ideal S2048x512 .f32) (bb : Vec Ideal S1x2048 .f32)
    (p : Fin 1024) (q : Fin 2048)
    (hx : ∀ k : Fin 512, ∃ r : ℝ, x0 (ix2 p k) = (r : EReal)) (hw : ∀ k : Fin 512, ∃ r : ℝ, w (ix2 q k) = (r : EReal)) :
    k0_pay1 (F := Ideal) x0 w bb (ix2 p q) = (∑ k : Fin 512, x0 (ix2 p k) * w (ix2 q k)) + bb (ix2 (0 : Fin 1) q) := by
  unfold k0_pay1
  -- a real number minus itself is zero (in the extended reals this needs the realness: ⊤ - ⊤ = ⊥)
  have hxx : ∀ k : Fin 512, x0 (ix2 p k) - x0 (ix2 p k) = 0 := fun k => by
    obtain ⟨r, hr⟩ := hx k
    rw [hr, ← EReal.coe_sub, sub_self, EReal.coe_zero]
  have hww : ∀ k : Fin 512, w (ix2 q k) - w (ix2 q k) = 0 := fun k => by
    obtain ⟨r, hr⟩ := hw k
    rw [hr, ← EReal.coe_sub, sub_self, EReal.coe_zero]
  -- the first product: the row of x0 against the row of w - w, a sum of zeros
  have h1 : matmul dot_S1024x512_S2048x512_S1024x2048_1_1_0_0_n_n none (truncf .bf16 x0 Facts₀.bitsLt_bf16_f32)
      (truncf .bf16 (subf (F := Ideal) (φ := .f32) w w) Facts₀.bitsLt_bf16_f32) (constant S1024x2048 .f32 0x00000000#32) (ix2 p q) = 0 := by
    refine (mm_apply _ _ p q).trans ?_
    refine Finset.sum_eq_zero fun k _ => ?_
    show x0 (ix2 p k) * (w (ix2 q k) - w (ix2 q k)) = 0
    rw [hww k, mul_zero]
  -- the second: the row of x0 - x0 against the row of w, a sum of zeros
  have h2 : matmul dot_S1024x512_S2048x512_S1024x2048_1_1_0_0_n_n none (truncf .bf16 (subf (F := Ideal) (φ := .f32) x0 x0) Facts₀.bitsLt_bf16_f32)
      (truncf .bf16 w Facts₀.bitsLt_bf16_f32) (constant S1024x2048 .f32 0x00000000#32) (ix2 p q) = 0 := by
    refine (mm_apply _ _ p q).trans ?_
    refine Finset.sum_eq_zero fun k _ => ?_
    show (x0 (ix2 p k) - x0 (ix2 p k)) * w (ix2 q k) = 0
    rw [hxx k, zero_mul]
  -- the third is the product itself
  have h3 : matmul (F := Ideal) dot_S1024x512_S2048x512_S1024x2048_1_1_0_0_n_n none (truncf (φ := .f32) .bf16 x0 Facts₀.bitsLt_bf16_f32)
      (truncf (φ := .f32) .bf16 w Facts₀.bitsLt_bf16_f32) (constant S1024x2048 .f32 0x00000000#32) (ix2 p q)
        = ∑ k : Fin 512, x0 (ix2 p k) * w (ix2 q k) := by
    exact mm_apply (truncf .bf16 x0 Facts₀.bitsLt_bf16_f32) (truncf .bf16 w Facts₀.bitsLt_bf16_f32) p q
  refine (addf_apply _ _ _).trans ?_
  refine congrArg₂ (· + ·) ?_ (bias_apply bb p q)
  refine (addf_apply _ _ _).trans ?_
  refine (congrArg₂ (· + ·) ((addf_apply _ _ _).trans ((congrArg₂ (· + ·) h1 h2).trans (add_zero 0))) h3).trans ?_
  exact zero_add _

end Cert.Proof.Pay

end
-- ==== Proof.IdealBody.lean ====
/-
  The body obligation of the idealized kernel's pipeline at the extended reals, and its run.

  At point `t` the body finds the activations' buffer at the whole activations, the weights' buffer at rows `2048·t ‥` of
  the weights on the rows inside the array (anything past them), the bias's buffer likewise, and stores
  (x·0ᵀ + 0·wᵀ) + x·wᵀ + bias into the logits' buffer. On the columns inside the array — the only ones the write-back
  moves — that value is `spec`'s block: entry (p, q) of the stored value reads row p of the activations and row q of the
  weights' buffer, both real there, so the two products with a difference `v − v = 0` vanish and what is left is
  Σ_k x(p,k)·W(2048·t+q, k) + b(2048·t+q). What the buffer holds past the array's end depends on contents nothing names,
  and nothing is said of it.
-/
import proofs.«155652_g5669356834823_cont_9to1_m_968_3_alg».proof.Proof.IdealData
import proofs.«155652_g5669356834823_cont_9to1_m_968_3_alg».proof.Proof.IdealKernel
import proofs.«155652_g5669356834823_cont_9to1_m_968_3_alg».proof.Proof.IdealBefore
import proofs.«155652_g5669356834823_cont_9to1_m_968_3_alg».proof.Proof.IdealBlocks
import proofs.«155652_g5669356834823_cont_9to1_m_968_3_alg».proof.Proof.Payload

noncomputable section

namespace Cert.Proof.KI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf ΦA)
open Idealize.ShloMosaic.ValueIdx
open scoped BigOperators

local notation "𝕄" => MT nD τ sig Unit (Elt Ideal) ℕ (UR sig nD τ) ℕ

variable (m : (ℓ : Loc nD τ sig) → Buf (Elt Ideal) ℓ) (ρ : Dev nD → PrngReg)

/-- The activations and the weights, as the region finds them, are real numbers entry by entry. -/
def RealArgs (c : Dev nD) : Prop :=
  (∀ i, ∃ r : ℝ, xA m c i = (r : EReal)) ∧ (∀ i, ∃ r : ℝ, wA m c i = (r : EReal))

/-- The stored value, cut to the columns inside the array, is `spec`'s block at the point. -/
theorem cut_pay (c : Dev nD) (t : Fin cfg0.N) (d1 : Vec Ideal S2048x512 .f32) (d2 : Vec Ideal S1x2048 .f32) (hr : RealArgs m c) :
    win0_3.cut (grid0.coords t) (k0_pay1 (F := Ideal) (xbuf m c t) (wbuf m c t d1) (bbuf m c t d2))
      = (win0_3.blk t).view.read (Elt Ideal) (spec m c) := by
  funext j
  obtain ⟨p, q, hq, e1, e2⟩ := cut3_apply t j
  rw [e1, e2]
  refine (Pay.pay_apply (xbuf m c t) (wbuf m c t d1) (bbuf m c t d2) p q
    (fun k => by rw [xbuf_apply]; exact hr.1 _) (fun k => by rw [wbuf_apply m c t d1 q k hq]; exact hr.2 _)).trans ?_
  rw [bbuf_apply m c t d2 q hq]
  unfold spec
  refine congrArg (· + _) (Finset.sum_congr rfl fun k _ => ?_)
  rw [xbuf_apply, wbuf_apply m c t d1 q k hq]

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns: the activations' buffer at its block; each of the three windows whose last block is cut at
    contents that agree with the proof data's on the part its transfers move. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ (∃ d, owns (c : Thread nD τ) (st0_1 t) fullShare (win0_1.fill (grid0.coords t) d (win0_1.cut (grid0.coords t) ((dats m 0 c).after 1 t))))
    ∗ (∃ d, owns (c : Thread nD τ) (st0_2 t) fullShare (win0_2.fill (grid0.coords t) d (win0_2.cut (grid0.coords t) ((dats m 0 c).after 2 t))))
    ∗ (∃ d, owns (c : Thread nD τ) (st0_3 t) fullShare (win0_3.fill (grid0.coords t) d (win0_3.cut (grid0.coords t) ((dats m 0 c).after 3 t)))))

theorem sound_body (c : Dev nD) (t : Fin cfg0.N) (hr : RealArgs m c) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, win0_1.cut_fill, win0_2.cut_fill, win0_3.cut_fill]
  iintro ⟨HΦ, Ho, ⟨%d0, H0⟩, ⟨%d1, H1⟩, ⟨%d2, H2⟩, ⟨%d3, H3⟩⟩
  iapply (sound_kernel (F := Ideal) c Set.univ (grid0.coords t) _ _ _ _ _ _ _ _ (xbuf m c t) (wbuf m c t d1) (bbuf m c t d2) _)
  isplitl [H0]; · iexact H0
  isplitl [H1]; · iexact H1
  isplitl [H2]; · iexact H2
  isplitl [H3]; · iexists d3; iexact H3
  iintro ⟨H0, H1, H2, H3⟩
  isplitl [HΦ]; · iexact HΦ
  isplitl [Ho]; · iexact Ho
  isplitl [H0]; · iexact H0
  isplitl [H1]; · iexists d1; iexact H1
  isplitl [H2]; · iexists d2; iexact H2
  iexists (k0_pay1 (F := Ideal) (xbuf m c t) (wbuf m c t d1) (bbuf m c t d2))
  rw [← cut_pay m c t d1 d2 hr, win0_3.fill_cut]
  iexact H3

/-- The library's body obligation, at every point. -/
theorem body_obligation (c : Dev nD) (hr : RealArgs m c) :
    BodyObligationLoose (dats m 0 c) (defs₀ (F := Ideal)) Variants.none () Set.univ := fun t => by
  rw [bigSep_W0, bigSep_W0]
  exact sound_body m c t hr

set_option backward.isDefEq.respectTransparency.types false in
/-- For real activations and weights: every weakly fair execution of @main terminates, every array of the pipeline ends
    at what the proof data compute and every other buffer as the region found it. -/
theorem run_main (hr : ∀ c, RealArgs m c) :
    θ_run defs (onTc (τ := τ) (main (F := Ideal))) (s₀ m ρ) (Pipeline.FramePost cfgs (dats m) 0 (V m)) :=
  Pipeline.θ_run_frame cfgs (dats m) (0 : Fin 1) launch0 defs₀ Variants.none m ρ main
    (hbody := fun c => body_obligation m c (hr c)) (hshare := fun c => (dats m 0 c).share_full fun _ => rfl)
    (howed := fun _ _ => rfl) (V := V m) (hmain := hmain m Variants.none) (hA := fun _ _ => rfl) (hΦ := fun _ _ => rfl)

end Cert.Proof.KI

end
-- ==== Proof.IdealFinal.lean ====
/-
  The logits array after the run: the 49 write-backs, each of `spec`'s block, together cover the array.
-/
import proofs.«155652_g5669356834823_cont_9to1_m_968_3_alg».proof.Proof.IdealData

noncomputable section

namespace Cert.Proof.KI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf ΦA)
open Idealize.ShloMosaic.ValueIdx

variable (m : (ℓ : Loc nD τ sig) → Buf (Elt Ideal) ℓ)

/-- The logits window over the grid, point by point: the block index is `(0, t)`; the part of the block inside the
    array is all 1024 rows and, of the 2048 columns from `2048·t` on, those below 100000 (all of them up to
    `t = 47`; 1696 at `t = 48`). -/
theorem idx3 : ∀ t : Fin cfg0.N, win0_3.index t (0 : Fin 2) = 0 ∧ win0_3.index t (1 : Fin 2) = t.val
    ∧ win0_3.xsize (grid0.coords t) (0 : Fin 2) = 1024
    ∧ win0_3.xsize (grid0.coords t) (1 : Fin 2) = min 2048 (100000 - 2048 * t.val) :=
  (by decide +kernel : ∀ t : Fin grid0.N, win0_3.index t (0 : Fin 2) = 0 ∧ win0_3.index t (1 : Fin 2) = t.val
    ∧ win0_3.xsize (grid0.coords t) (0 : Fin 2) = 1024
    ∧ win0_3.xsize (grid0.coords t) (1 : Fin 2) = min 2048 (100000 - 2048 * t.val))

/-- An index of the logits array is in point `t`'s block iff its column is one of the block's columns inside the
    array (every row is: the blocks span the rows). -/
theorem mem_blk3 (t : Fin cfg0.N) (i : S1024x100000.Idx) :
    i ∈ ((cfg0.win 3).blk t).view.set ↔
      2048 * t.val ≤ (i 1).val ∧ (i 1).val < 2048 * t.val + min 2048 (100000 - 2048 * t.val) := by
  show i ∈ ((View.whole main_v1).slice (win0_3.rect t)).set ↔ _
  rw [View.set_slice_whole, Rect.mem_set_unit]
  obtain ⟨e0, e1, e2, e3⟩ := idx3 t
  have h0 : (i 0).val < 1024 := idx2_lt0 i
  constructor
  · intro h
    have h1 : win0_3.index t (1 : Fin 2) * 2048 ≤ (i 1).val
        ∧ (i 1).val < win0_3.index t (1 : Fin 2) * 2048 + win0_3.xsize (grid0.coords t) (1 : Fin 2) := h 1
    rw [e1, e3] at h1; omega
  · intro h a
    match a with
    | ⟨0, _⟩ =>
      show win0_3.index t (0 : Fin 2) * 1024 ≤ (i 0).val
        ∧ (i 0).val < win0_3.index t (0 : Fin 2) * 1024 + win0_3.xsize (grid0.coords t) (0 : Fin 2)
      rw [e0, e2]; omega
    | ⟨1, _⟩ =>
      show win0_3.index t (1 : Fin 2) * 2048 ≤ (i 1).val
        ∧ (i 1).val < win0_3.index t (1 : Fin 2) * 2048 + win0_3.xsize (grid0.coords t) (1 : Fin 2)
      rw [e1, e3]; omega

/-- Column `j` of the array lies in the block of point `j / 2048` (below 49, as `j < 100000`): the 49 blocks cover the
    array. -/
theorem cover3 (i : S1024x100000.Idx) :
    ∃ t : Fin cfg0.N, (cfg0.win 3).flush t = true ∧ i ∈ ((cfg0.win 3).blk t).view.set := by
  have h1 : (i 1).val < 100000 := idx2_lt1 i
  have hN : cfg0.N = 49 := by decide
  refine ⟨⟨(i 1).val / 2048, by rw [hN]; omega⟩, flush0_3 _, ?_⟩
  rw [mem_blk3]
  show 2048 * ((i 1).val / 2048) ≤ (i 1).val
    ∧ (i 1).val < 2048 * ((i 1).val / 2048) + min 2048 (100000 - 2048 * ((i 1).val / 2048))
  omega

/-- Every write-back writes `spec`'s block and the blocks cover the array: it ends holding `spec`. -/
theorem final3 (c : Dev nD) : (dats m 0 c).arrAt 3 cfg0.N = spec m c :=
  (dats m 0 c).arrAt_eq_of_cover 3 (spec m c) (fun t _ => flushed3 m c t) cover3

end Cert.Proof.KI

end
-- ==== Proof.Logits.lean ====
/-
  The specification both programs are compared with: the logits of a dense output projection,

      logits x W b (i, j) = (Σ_k x(i, k) · W(j, k)) + b(j),     i < 1024, j < 100000, k < 512,

  as one function of the three float arguments, over the extended reals. No program is imported here.
-/
import Idealize.ShloMosaic.PureOps.Ideal
import Idealize.ShloMosaic.Lib.ValueIdx

noncomputable section

namespace Cert.Proof.Logits

open Idealize.ShloMosaic Idealize.ShloMosaic.ValueIdx
open scoped BigOperators

/-- The activations' shape, [1024, 512]. -/
abbrev SX : Shape := ⟨2, ![1024, 512]⟩
/-- The weights' shape, [100000, 512]. -/
abbrev SW : Shape := ⟨2, ![100000, 512]⟩
/-- The bias's shape, [100000]. -/
abbrev SB : Shape := ⟨1, ![100000]⟩
/-- The logits' shape, [1024, 100000]. -/
abbrev SO : Shape := ⟨2, ![1024, 100000]⟩

/-- Row `i` of the activations against row `j` of the weights, plus the bias at `j`. -/
def logits (x : FVec Ideal SX .f32) (W : FVec Ideal SW .f32) (b : FVec Ideal SB .f32) : FVec Ideal SO .f32 :=
  fun i => (∑ k : Fin 512, x (ix2 (i 0) k) * W (ix2 (i 1) k)) + b (ix1 (i 1))

theorem logits_apply (x : FVec Ideal SX .f32) (W : FVec Ideal SW .f32) (b : FVec Ideal SB .f32) (p : Fin 1024) (q : Fin 100000) :
    logits x W b (ix2 p q) = (∑ k : Fin 512, x (ix2 p k) * W (ix2 q k)) + b (ix1 q) := rfl

end Cert.Proof.Logits

end
-- ==== Proof.IdealSpec.lean ====
/-
  `spec`, stated over the arrays as the region finds them, is the logits of the program's arguments: the activations and
  the weights reach the region as launched, and the bias row is the host's reshape of the bias, read at (0, j) as the bias at j.
-/
import proofs.«155652_g5669356834823_cont_9to1_m_968_3_alg».proof.Proof.IdealData
import proofs.«155652_g5669356834823_cont_9to1_m_968_3_alg».proof.Proof.Logits
import Idealize.ShloMosaic.Lib.StableHlo.Run
import Idealize.ShloMosaic.Lib.ValueLayout

noncomputable section

namespace Cert.Proof.KI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf ΦA)
open Idealize.ShloMosaic.ValueIdx

variable (m : (ℓ : Loc nD τ sig) → Buf (Elt Ideal) ℓ)

/-- The bias row as the region finds it is the host's reshape of the bias as launched: the one host operation before
    the region writes it, from the bias argument, which nothing has written. -/
theorem bA_eq_shapeCast (c : Dev nD) :
    (bA m c : S1x100000.Idx → EReal)
      = shapeCast S1x100000 (m ((c.tc : Thread nD τ).loc main_arg3)) shapeCasts_S100000_S1x100000 := by
  dsimp only [bA, Gen.V, Gen.hostOps0]
  after_results
  rfl

/-- The bias row at `(0, j)` is the bias at `j`: the reshape `[n] → [1, n]` keeps the row-major position. -/
theorem bA_apply (c : Dev nD) (j : Fin 100000) :
    bA m c (ix2 (0 : Fin 1) j) = m ((c.tc : Thread nD τ).loc main_arg3) (ix1 j) := by
  rw [bA_eq_shapeCast]
  exact shapeCast_a_1a_apply _ _ _ _

theorem spec_eq_logits (c : Dev nD) :
    spec m c = Logits.logits (m ((c.tc : Thread nD τ).loc main_arg0)) (m ((c.tc : Thread nD τ).loc main_arg2)) (m ((c.tc : Thread nD τ).loc main_arg3)) := by
  funext i
  have ex : xA m c = m ((c.tc : Thread nD τ).loc main_arg0) := V_main_arg0 m c
  have ew : wA m c = m ((c.tc : Thread nD τ).loc main_arg2) := V_main_arg2 m c
  unfold spec Logits.logits
  rw [ex, ew]
  congr 1
  exact bA_apply m c (i 1)

end Cert.Proof.KI

end
-- ==== Proof.Finite.lean ====
/-
  The precondition read: where `finite_inputs` is all ones, every entry of the three float inputs is a real number.
-/
import proofs.«155652_g5669356834823_cont_9to1_m_968_3_alg».proof.Pre_finite_inputs
import proofs.«155652_g5669356834823_cont_9to1_m_968_3_alg».proof.Proof.Gen.Pre_finite_inputs
import Idealize.ShloMosaic.PureOps.Ideal
import Idealize.ShloMosaic.Lib.ReduceAll
import Idealize.ShloMosaic.Lib.ValueIdx

noncomputable section

namespace Cert.Proof.Fin

open Idealize.ShloMosaic Idealize.ShloMosaic.ValueIdx
open Cert.Pre_finite_inputs

/-- The result shape of a full reduction has exactly one index. -/
instance subsingleton_S_Idx : Subsingleton S_.Idx := ⟨fun a b => funext fun d => d.elim0⟩

/-- A value whose absolute value `max a (-a)` compares strictly below `+∞` is a real number:
    the comparison rules out both infinities. -/
theorem real_of_abs_lt_inf (a : EReal)
    (h : Ideal.cmp .olt (max a (-a)) (Ideal.ofBits .f32 0x7F800000#32) = 1#1) :
    ∃ r : ℝ, a = (r : EReal) := by
  have htop : Ideal.ofBits .f32 0x7F800000#32 = ⊤ := by simp [Ideal.ofBits, Ideal.ieee]
  rw [htop] at h
  unfold Ideal.cmp at h
  have hlt : max a (-a) < ⊤ := by
    by_contra hn
    simp [hn] at h
  induction a using EReal.rec with
  | bot => simp at hlt
  | coe r => exact ⟨r, rfl⟩
  | top => simp at hlt

theorem finite_of_fn (x : FVec Ideal S1024x512 .f32) (l : IVec S1024 32) (W : FVec Ideal S100000x512 .f32) (b : FVec Ideal S100000 .f32)
    (h : Cert.Pre_finite_inputs.fn (F := Ideal) x l W b = fun _ => 1#1) :
    (∀ i, ∃ r : ℝ, x i = (r : EReal)) ∧ (∀ i, ∃ r : ℝ, W i = (r : EReal)) ∧ (∀ i, ∃ r : ℝ, b i = (r : EReal)) := by
  -- the one entry of the result, with the printed chain in view
  have h0 := congrFun h ValueIdx.ix0
  dsimp only [Cert.Pre_finite_inputs.fn] at h0
  -- the outer conjunction, then the inner one: each of the three reductions is 1
  obtain ⟨h01, h3⟩ := IntOp.andi_eq_one.1 h0
  obtain ⟨h1, h2⟩ := IntOp.andi_eq_one.1 h01
  -- a full reduction by `and` that is 1 met a 1 at every entry; that entry is `|v| < +∞`
  refine ⟨fun i => ?_, fun i => ?_, fun i => ?_⟩
  · exact real_of_abs_lt_inf (x i) (Host.reduce_andi_all _ _ _ _ _ h1 i)
  · exact real_of_abs_lt_inf (W i) (Host.reduce_andi_all _ _ _ _ _ h2 i)
  · exact real_of_abs_lt_inf (b i) (Host.reduce_andi_all _ _ _ _ _ h3 i)

end Cert.Proof.Fin

end
-- ==== Proof.IdealRun.lean ====
/-
  The idealized kernel under the precondition: finite inputs are real numbers, so the pipeline runs; the logits array ends
  at the logits of the arguments — the 49 write-backs of `spec`'s blocks cover it — and the arguments end as launched.
-/
import proofs.«155652_g5669356834823_cont_9to1_m_968_3_alg».proof.Defs
import proofs.«155652_g5669356834823_cont_9to1_m_968_3_alg».proof.Proof.IdealBody
import proofs.«155652_g5669356834823_cont_9to1_m_968_3_alg».proof.Proof.IdealFinal
import proofs.«155652_g5669356834823_cont_9to1_m_968_3_alg».proof.Proof.IdealSpec
import proofs.«155652_g5669356834823_cont_9to1_m_968_3_alg».proof.Proof.Finite
import proofs.«155652_g5669356834823_cont_9to1_m_968_3_alg».proof.Proof.Gen.Pre_finite_inputs

noncomputable section

namespace Cert.Proof.KI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf ΦA)
open Idealize.ShloMosaic.ValueIdx

variable (m : (ℓ : Loc nD τ sig) → Buf (Elt Ideal) ℓ) (ρ : Dev nD → PrngReg)

/-- Under the precondition the activations and the weights reach the region as real numbers: they reach it as launched,
    and the precondition says every entry launched is below +∞ in absolute value. -/
theorem realArgs_of_pre (h : Cert.Pre_KernelIdeal m) (c : Dev nD) : RealArgs m c := by
  obtain ⟨hx, hw, -⟩ := Fin.finite_of_fn _ _ _ _ (h c)
  refine ⟨fun i => ?_, fun i => ?_⟩
  · rw [show xA m c = m ((c : Thread nD τ).loc main_arg0) from V_main_arg0 m c]; exact hx i
  · rw [show wA m c = m ((c : Thread nD τ).loc main_arg2) from V_main_arg2 m c]; exact hw i

/-- The run, read at the result and at the arguments. -/
theorem run_value (h : Cert.Pre_KernelIdeal m) :
    θ_run (defs (F := Ideal)) (onTc (τ := τ) (main (F := Ideal))) ⟨m, fun _ => 0, ρ⟩ (fun r => ∀ c : Dev nD,
      r.2.mem ((c.tc : Thread nD τ).loc main_v1)
          = Logits.logits (m ((c.tc : Thread nD τ).loc main_arg0)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r hr c => ⟨((hr c).1 3).trans ((final3 m c).trans (spec_eq_logits m c)),
      ((hr c).1 0).trans (((dats m 0 c).arrAt_in 0 rfl _).trans ((A_eq m c 0).trans (V_main_arg0 m c))),
      ((hr c).2 main_arg1 (Pipeline.mem_restRefs_of main_arg1 (by decide) (by decide))).trans (V_main_arg1 m c),
      ((hr c).1 1).trans (((dats m 0 c).arrAt_in 1 rfl _).trans ((A_eq m c 1).trans (V_main_arg2 m c))),
      ((hr c).2 main_arg3 (Pipeline.mem_restRefs_of main_arg3 (by decide) (by decide))).trans (V_main_arg3 m c)⟩)
    (run_main m ρ (realArgs_of_pre m h))

theorem frame : Cert.frame_KernelIdeal := fun m ρ h =>
  (θ_run defs _ _).mono (fun _ hr c => (hr c).2) (run_value m ρ h)

end Cert.Proof.KI

end
-- ==== Proof.RefLogits.lean ====
/-
  The reference computes the logits: its result array ends at `logits inputs W b`, and its arguments end unchanged.
-/
import proofs.«155652_g5669356834823_cont_9to1_m_968_3_alg».proof.Defs
import proofs.«155652_g5669356834823_cont_9to1_m_968_3_alg».proof.Proof.Gen.ReferenceIdeal
import proofs.«155652_g5669356834823_cont_9to1_m_968_3_alg».proof.Proof.Gen.ReferenceIdeal.Run
import proofs.«155652_g5669356834823_cont_9to1_m_968_3_alg».proof.Proof.Gen.ReferenceIdeal.Read
import proofs.«155652_g5669356834823_cont_9to1_m_968_3_alg».proof.Proof.Gen.Pre_finite_inputs
import proofs.«155652_g5669356834823_cont_9to1_m_968_3_alg».proof.Proof.Logits

noncomputable section

namespace Cert.Proof.Ref

open Idealize.ShloMosaic Idealize.ShloMosaic.TcCoe Idealize.SL.Sem
open Cert.ReferenceIdeal

/-- The left operand's index of the contraction is (row, k). -/
theorem lidx_eq (i : S1024x100000.Idx) (k : Fin 512) :
    Read.lidx_main_v1 i k = ValueIdx.ix2 (i 0) k :=
  funext fun a => Fin.ext (by match a with | ⟨0, _⟩ => rfl | ⟨1, _⟩ => rfl)

/-- The transposed weights read at (k, column) are the weights at (column, k). -/
theorem widx_eq (i : S1024x100000.Idx) (k : Fin 512) :
    Read.idx_main_v0 (Read.ridx_main_v1 i k) = ValueIdx.ix2 (i 1) k :=
  funext fun a => Fin.ext (by match a with | ⟨0, _⟩ => rfl | ⟨1, _⟩ => rfl)

/-- The twice-broadcast bias read at (row, column) is the bias at the column. -/
theorem bidx_eq (i : S1024x100000.Idx) :
    Read.idx_main_v2 (Read.idx_main_v3 i) = ValueIdx.ix1 (i 1) :=
  funext fun a => Fin.ext (by match a with | ⟨0, _⟩ => rfl)

/-- The reference's composed term is the logits: x · Wᵀ read index by index is the sum over k of x(i, k) · W(j, k), and the
    broadcasts read the bias at j. -/
theorem ref_eq (x0 : (⟨S1024x512, .f32⟩ : BufTy).Contents (Elt Ideal)) (x2 : (⟨S100000x512, .f32⟩ : BufTy).Contents (Elt Ideal))
    (x3 : (⟨S100000, .f32⟩ : BufTy).Contents (Elt Ideal)) :
    Read.val_main_v4 (F := Ideal) x0 x2 x3 = Logits.logits x0 x2 x3 := by
  funext i
  rw [Read.val_main_v4_apply, Read.val_main_v1_apply, Read.val_main_v3_apply, Read.val_main_v2_apply, bidx_eq]
  show (∑ k : Fin 512, x0 (Read.lidx_main_v1 i k) * Read.val_main_v0 (F := Ideal) x2 (Read.ridx_main_v1 i k)) + x3 (ValueIdx.ix1 (i 1)) = _
  unfold Logits.logits
  congr 1
  refine Finset.sum_congr rfl fun k _ => ?_
  rw [Read.val_main_v0_apply, lidx_eq, widx_eq]
  rfl

theorem frame : Cert.frame_ReferenceIdeal := fun m ρ _ =>
  (θ_run Cert.ReferenceIdeal.defs _ _).mono (fun _ h c => (h c).2.2) (Cert.ReferenceIdeal.Value.run (F := Ideal) m ρ)

theorem run_logits (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v4)
          = Logits.logits (m ((c.tc : Thread nD τ).loc main_arg0)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).1.trans (Read.val_main_v4_eq _ _ _)).trans (ref_eq _ _ _), (h c).2.2⟩)
    (Cert.ReferenceIdeal.Value.run (F := Ideal) m g)

end Cert.Proof.Ref

end
-- ==== Proof.lean ====
/-
  The certificate of a dense output projection, logits = x · Wᵀ + b over x : [1024, 512], W : [100000, 512],
  b : [100000], computed by a kernel that grids over the 100000 outputs in 49 blocks of 2048 and forms each block's
  product as x_hi·w_loᵀ + x_lo·w_hiᵀ + x_hi·w_hiᵀ from a bf16 split of both operands, against the plain jnp expression.

  Over the extended reals a change of float format is the identity, so x_hi = x, x_lo = x − x and likewise for w; for
  FINITE inputs x − x = 0 and w − w = 0 entry by entry, the first two products vanish, and the kernel's value at
  (i, j) is Σ_k x(i,k)·W(j,k) + b(j): the reference's (its transpose and dot_general read at an index).
  49 · 2048 = 100352 > 100000: the last block of the weights, of the bias row and of the logits overhangs its array.
  The contraction runs over k, never over the overhanging axis, so what the last fetch leaves past the array's end
  reaches only columns the write-back does not move; the proof states the staging buffers on the moved part only.
  At the word level the matrix product is an opaque function of its whole operands, so the word-level frame is proved
  with relations that say nothing of the buffers' contents.

  The five conjuncts: the three frames; `preserves` — the two ledger entries, both `extf (truncf v) ↦ v`, at the
  activations' and the weights' block shapes —; and the equivalence.
-/
import proofs.«155652_g5669356834823_cont_9to1_m_968_3_alg».proof.Defs
import proofs.«155652_g5669356834823_cont_9to1_m_968_3_alg».proof.Proof.Gen.Kernel
import proofs.«155652_g5669356834823_cont_9to1_m_968_3_alg».proof.Proof.Gen.KernelIdeal
import proofs.«155652_g5669356834823_cont_9to1_m_968_3_alg».proof.Proof.Gen.ReferenceIdeal
import proofs.«155652_g5669356834823_cont_9to1_m_968_3_alg».proof.Proof.Gen.Pre_finite_inputs
import proofs.«155652_g5669356834823_cont_9to1_m_968_3_alg».proof.Proof.KernelBitsFrame
import proofs.«155652_g5669356834823_cont_9to1_m_968_3_alg».proof.Proof.IdealRun
import proofs.«155652_g5669356834823_cont_9to1_m_968_3_alg».proof.Proof.RefLogits
import Idealize.ShloMosaic.Adequacy
import Idealize.ShloMosaic.Init

noncomputable section

namespace Cert.Proof

open Idealize.ShloMosaic Idealize.SL.Sem

/-- The ledger's two entries: widening what was just narrowed is the identity over the extended reals. -/
theorem preserves : Cert.preserves_Kernel_KernelIdeal :=
  ⟨IdealRules.truncf_extf.statement Cert.KernelIdeal.S1024x512 .f32 .bf16,
   IdealRules.truncf_extf.statement Cert.KernelIdeal.S2048x512 .f32 .bf16⟩

/-- From memories that agree on the arguments both programs end with the logits of those arguments, and with the
    labels they were given. -/
theorem algebraic : Cert.algebraic_KernelIdeal_ReferenceIdeal := by
  intro m ρ m' ρ' hpre hagree
  refine ⟨fun c => Logits.logits (m ((c.tc : Thread _ _).loc Cert.KernelIdeal.main_arg0)) (m ((c.tc : Thread _ _).loc Cert.KernelIdeal.main_arg2))
      (m ((c.tc : Thread _ _).loc Cert.KernelIdeal.main_arg3)), fun c => m ((c.tc : Thread _ _).loc Cert.KernelIdeal.main_arg1), ?_, ?_⟩
  · exact (θ_run (Cert.KernelIdeal.defs (F := Ideal)) _ _).mono
      (fun _ h c => ⟨(h c).1, (h c).2.2.1, (h c).2⟩) (KI.run_value m ρ hpre)
  · refine (θ_run (Cert.ReferenceIdeal.defs (F := Ideal)) _ _).mono (fun _ h c => ⟨?_, ?_, (h c).2⟩) (Ref.run_logits m' ρ')
    · rw [(h c).1, (hagree c).1, (hagree c).2.2.1, (hagree c).2.2.2]
    · rw [(h c).2.2.1, (hagree c).2.1]

theorem claim : Cert.Claim := ⟨Cert.Kernel.Gen.facts, Cert.KernelIdeal.Gen.facts, Cert.ReferenceIdeal.Gen.facts, Cert.Pre_finite_inputs.Gen.facts,
  KBits.frame, KI.frame, Ref.frame, preserves, algebraic⟩

end Cert.Proof

end
